-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x50 : Shape := ⟨2, ![64, 50]⟩
abbrev S128x32000 : Shape := ⟨2, ![128, 32000]⟩
abbrev S128 : Shape := ⟨1, ![128]⟩
abbrev S32000x128 : Shape := ⟨2, ![32000, 128]⟩
abbrev S32000 : Shape := ⟨1, ![32000]⟩
abbrev S_ : Shape := ⟨0, ![]⟩

class Facts : Prop where
  bcast_S_S128x32000 : S_.BroadcastsInDim S128x32000 (![] : Fin 0 → Fin S128x32000.rank)
  reducesTo_S128x32000_S_d0_1 : S128x32000.ReducesTo [0, 1] S_
  h_S_ : 0 < S_.numel
  bcast_S_S128 : S_.BroadcastsInDim S128 (![] : Fin 0 → Fin S128.rank)
  reducesTo_S128_S_d0 : S128.ReducesTo [0] S_
  bcast_S_S32000x128 : S_.BroadcastsInDim S32000x128 (![] : Fin 0 → Fin S32000x128.rank)
  reducesTo_S32000x128_S_d0_1 : S32000x128.ReducesTo [0, 1] S_
  bcast_S_S32000 : S_.BroadcastsInDim S32000 (![] : Fin 0 → Fin S32000.rank)
  reducesTo_S32000_S_d0 : S32000.ReducesTo [0] S_
  bcast_S_S64x50 : S_.BroadcastsInDim S64x50 (![] : Fin 0 → Fin S64x50.rank)
  reducesTo_S64x50_S_d0_1 : S64x50.ReducesTo [0, 1] S_

variable [Facts]

def fn_part1 {F : FTy → Type} [FloatOps F] (main_arg0 : IVec S64x50 32) (main_v13 : IVec S_ 1) (main_v16 : IVec S32000 1) : IVec S_ 1 :=
  let main_c_5 : IVec S_ 1 := constantI S_ 1 1#1
  let main_v17 : IVec S_ 1 := (fun x v => Host.reduce IntOp.andi x v reducesTo_S32000_S_d0 h_S_) main_v16 main_c_5
  let main_v18 : IVec S_ 1 := andi main_v13 main_v17
  let main_c_6 : IVec S_ 32 := constantI S_ 32 4294935296#32
  let main_v19 : IVec S64x50 32 := broadcastInDim S64x50 ![] bcast_S_S64x50 main_c_6
  let main_v20 : IVec S64x50 1 := cmpi .sge main_arg0 main_v19
  let main_c_7 : IVec S_ 1 := constantI S_ 1 1#1
  let main_v21 : IVec S_ 1 := (fun x v => Host.reduce IntOp.andi x v reducesTo_S64x50_S_d0_1 h_S_) main_v20 main_c_7
  let main_v22 : IVec S_ 1 := andi main_v18 main_v21
  let main_c_8 : IVec S_ 32 := constantI S_ 32 32000#32
  let main_v23 : IVec S64x50 32 := broadcastInDim S64x50 ![] bcast_S_S64x50 main_c_8
  let main_v24 : IVec S64x50 1 := cmpi .slt main_arg0 main_v23
  let main_c_9 : IVec S_ 1 := constantI S_ 1 1#1
  let main_v25 : IVec S_ 1 := (fun x v => Host.reduce IntOp.andi x v reducesTo_S64x50_S_d0_1 h_S_) main_v24 main_c_9
  let main_v26 : IVec S_ 1 := andi main_v22 main_v25
  main_v26

def fn {F : FTy → Type} [FloatOps F] (main_arg0 : IVec S64x50 32) (main_arg1 : FVec F S128x32000 .f32) (main_arg2 : FVec F S128 .f32) (main_arg3 : FVec F S32000x128 .f32) (main_arg4 : FVec F S32000 .f32) : IVec S_ 1 :=
  let main_v0 : FVec F S128x32000 .f32 := Host.absf main_arg1
  let main_cst : FVec F S_ .f32 := constant S_ .f32 0x7F800000#32
  let main_v1 : FVec F S128x32000 .f32 := broadcastInDim S128x32000 ![] bcast_S_S128x32000 main_cst
  let main_v2 : IVec S128x32000 1 := cmpf .olt main_v0 main_v1
  let main_c : IVec S_ 1 := constantI S_ 1 1#1
  let main_v3 : IVec S_ 1 := (fun x v => Host.reduce IntOp.andi x v reducesTo_S128x32000_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S32000x128 .f32 := Host.absf main_arg3
  let main_cst_2 : FVec F S_ .f32 := constant S_ .f32 0x7F800000#32
  let main_v10 : FVec F S32000x128 .f32 := broadcastInDim S32000x128 ![] bcast_S_S32000x128 main_cst_2
  let main_v11 : IVec S32000x128 1 := cmpf .olt main_v9 main_v10
  let main_c_3 : IVec S_ 1 := constantI S_ 1 1#1
  let main_v12 : IVec S_ 1 := (fun x v => Host.reduce IntOp.andi x v reducesTo_S32000x128_S_d0_1 h_S_) main_v11 main_c_3
  let main_v13 : IVec S_ 1 := andi main_v8 main_v12
  let main_v14 : FVec F S32000 .f32 := Host.absf main_arg4
  let main_cst_4 : FVec F S_ .f32 := constant S_ .f32 0x7F800000#32
  let main_v15 : FVec F S32000 .f32 := broadcastInDim S32000 ![] bcast_S_S32000 main_cst_4
  let main_v16 : IVec S32000 1 := cmpf .olt main_v14 main_v15
  fn_part1 (F := F) main_arg0 main_v13 main_v16
-- ==== Kernel.lean ====
abbrev S64x50 : Shape := ⟨2, ![64, 50]⟩
abbrev S128x32000 : Shape := ⟨2, ![128, 32000]⟩
abbrev S128 : Shape := ⟨1, ![128]⟩
abbrev S32000x128 : Shape := ⟨2, ![32000, 128]⟩
abbrev S32000 : Shape := ⟨1, ![32000]⟩
abbrev S3200 : Shape := ⟨1, ![3200]⟩
abbrev S_ : Shape := ⟨0, ![]⟩
abbrev S3200x1 : Shape := ⟨2, ![3200, 1]⟩
abbrev S1 : Shape := ⟨1, ![1]⟩
abbrev S1x1 : Shape := ⟨2, ![1, 1]⟩
abbrev S128x3200 : Shape := ⟨2, ![128, 3200]⟩
abbrev S3200x128 : Shape := ⟨2, ![3200, 128]⟩
abbrev S1x128 : Shape := ⟨2, ![1, 128]⟩
abbrev S1x32000 : Shape := ⟨2, ![1, 32000]⟩
abbrev S3200x32000 : Shape := ⟨2, ![3200, 32000]⟩
abbrev S640x128 : Shape := ⟨2, ![640, 128]⟩
abbrev S1x640 : Shape := ⟨2, ![1, 640]⟩
abbrev S3200x640 : Shape := ⟨2, ![3200, 640]⟩
abbrev S640 : Shape := ⟨1, ![640]⟩

abbrev nBuf : Space → Nat
  | .hbm => 37
  | .vmem => 7
  | .smem => 0
  | _ => 0

abbrev bufTy : (tb : Table) → Fin (tcTables nBuf tb) → BufTy
  | .hbm, ⟨0, _⟩ => ⟨S64x50, .i32⟩
  | .hbm, ⟨1, _⟩ => ⟨S128x32000, .f32⟩
  | .hbm, ⟨2, _⟩ => ⟨S128, .f32⟩
  | .hbm, ⟨3, _⟩ => ⟨S32000x128, .f32⟩
  | .hbm, ⟨4, _⟩ => ⟨S32000, .f32⟩
  | .hbm, ⟨5, _⟩ => ⟨S3200, .i32⟩
  | .hbm, ⟨6, _⟩ => ⟨S_, .i32⟩
  | .hbm, ⟨7, _⟩ => ⟨S3200, .i32⟩
  | .hbm, ⟨8, _⟩ => ⟨S3200, .i1⟩
  | .hbm, ⟨9, _⟩ => ⟨S_, .i32⟩
  | .hbm, ⟨10, _⟩ => ⟨S3200, .i32⟩
  | .hbm, ⟨11, _⟩ => ⟨S3200, .i32⟩
  | .hbm, ⟨12, _⟩ => ⟨S3200, .i32⟩
  | .hbm, ⟨13, _⟩ => ⟨S3200x1, .i32⟩
  | .hbm, ⟨14, _⟩ => ⟨S1, .i32⟩
  | .hbm, ⟨15, _⟩ => ⟨S_, .i32⟩
  | .hbm, ⟨16, _⟩ => ⟨S3200x1, .i32⟩
  | .hbm, ⟨17, _⟩ => ⟨S3200x1, .i1⟩
  | .hbm, ⟨18, _⟩ => ⟨S1x1, .i32⟩
  | .hbm, ⟨19, _⟩ => ⟨S3200x1, .i32⟩
  | .hbm, ⟨20, _⟩ => ⟨S3200x1, .i1⟩
  | .hbm, ⟨21, _⟩ => ⟨S3200x1, .i1⟩
  | .hbm, ⟨22, _⟩ => ⟨S_, .i1⟩
  | .hbm, ⟨23, _⟩ => ⟨S3200, .i1⟩
  | .hbm, ⟨24, _⟩ => ⟨S128x3200, .f32⟩
  | .hbm, ⟨25, _⟩ => ⟨S128x3200, .i1⟩
  | .hbm, ⟨26, _⟩ => ⟨S_, .f32⟩
  | .hbm, ⟨27, _⟩ => ⟨S128x3200, .f32⟩
  | .hbm, ⟨28, _⟩ => ⟨S128x3200, .f32⟩
  | .hbm, ⟨29, _⟩ => ⟨S3200x128, .f32⟩
  | .hbm, ⟨30, _⟩ => ⟨S1x128, .f32⟩
  | .hbm, ⟨31, _⟩ => ⟨S3200x128, .f32⟩
  | .hbm, ⟨32, _⟩ => ⟨S3200x128, .f32⟩
  | .hbm, ⟨33, _⟩ => ⟨S3200x128, .bf16⟩
  | .hbm, ⟨34, _⟩ => ⟨S32000x128, .bf16⟩
  | .hbm, ⟨35, _⟩ => ⟨S1x32000, .f32⟩
  | .hbm, ⟨36, _⟩ => ⟨S3200x32000, .f32⟩
  | .local _ .vmem, ⟨0, _⟩ => ⟨S3200x128, .bf16⟩
  | .local _ .vmem, ⟨1, _⟩ => ⟨S640x128, .bf16⟩
  | .local _ .vmem, ⟨2, _⟩ => ⟨S640x128, .bf16⟩
  | .local _ .vmem, ⟨3, _⟩ => ⟨S1x640, .f32⟩
  | .local _ .vmem, ⟨4, _⟩ => ⟨S1x640, .f32⟩
  | .local _ .vmem, ⟨5, _⟩ => ⟨S3200x640, .f32⟩
  | .local _ .vmem, ⟨6, _⟩ => ⟨S3200x640, .f32⟩
  | _, _ => ⟨S64x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S3200x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3200x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x50_S3200 : S64x50.ShapeCasts S3200
  bcast_S_S3200 : S_.BroadcastsInDim S3200 (![] : Fin 0 → Fin S3200.rank)
  bcast_S3200_S3200x1_0 : S3200.BroadcastsInDim S3200x1 (![0] : Fin 1 → Fin S3200x1.rank)
  bcast_S_S3200x1 : S_.BroadcastsInDim S3200x1 (![] : Fin 0 → Fin S3200x1.rank)
  bcast_S1_S1x1_1 : S1.BroadcastsInDim S1x1 (![1] : Fin 1 → Fin S1x1.rank)
  bcast_S1x1_S3200x1_0_1 : S1x1.BroadcastsInDim S3200x1 (![0, 1] : Fin 2 → Fin S3200x1.rank)
  reducesTo_S3200x1_S3200_d1 : S3200x1.ReducesTo [1] S3200
  h_S_ : 0 < S_.numel
  bcast_S3200_S128x3200_1 : S3200.BroadcastsInDim S128x3200 (![1] : Fin 1 → Fin S128x3200.rank)
  bcast_S_S128x3200 : S_.BroadcastsInDim S128x3200 (![] : Fin 0 → Fin S128x3200.rank)
  transposes_S128x3200_S3200x128_1_0 : S128x3200.Transposes [1, 0] S3200x128
  bcast_S128_S1x128_1 : S128.BroadcastsInDim S1x128 (![1] : Fin 1 → Fin S1x128.rank)
  bcast_S1x128_S3200x128_0_1 : S1x128.BroadcastsInDim S3200x128 (![0, 1] : Fin 2 → Fin S3200x128.rank)
  bitsLt_bf16_f32 : FTy.bits .bf16 < FTy.bits .f32
  shapeCasts_S32000_S1x32000 : S32000.ShapeCasts S1x32000
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S640x128_S640x128_0_0 : ∀ a, (![0, 0] : Fin 2 → Nat) a + S640x128.size a ≤ S640x128.size a
  h_S640x128 : 0 < S640x128.numel
  shapeCasts_S640x128_S640x128 : S640x128.ShapeCasts S640x128
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S3200x640 : S1x640.Broadcasts S3200x640
  reduces_S3200x640_S640 : S3200x640.Reduces [0] S640
  shapeCasts_S640_S1x640 : S640.ShapeCasts S1x640
  inb_S3200x640_S3200x640_0_0 : ∀ a, (![0, 0] : Fin 2 → Nat) a + S3200x640.size a ≤ S3200x640.size a
  h_S3200x640 : 0 < S3200x640.numel
  gather_S128x32000_S3200x1_S128x3200_0_1_n_n_1_1_1281_wf : GatherDims.WF S128x32000 S3200x1 S128x3200 [0] [1] [] [1] [] 1 ![128, 1]
  dot_S3200x128_S640x128_S3200x640_1_1_0_0_n_n_wf : DotDims.WF S3200x128 S640x128 S3200x640 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S3200x128.size a
  hwx0_0 : ∀ i : grid0.Coords, EltTy.bits .bf16 = 32 ∨ (Rect.block (s := S3200x128) S3200x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x128.size a ≤ S32000x128.size a
  hwx0_1 : ∀ i : grid0.Coords, EltTy.bits .bf16 = 32 ∨ (Rect.block (s := S32000x128) S640x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x640.size a ≤ S1x32000.size a
  hwx0_2 : ∀ i : grid0.Coords, EltTy.bits .f32 = 32 ∨ (Rect.block (s := S1x32000) S1x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3200x640.size a ≤ S3200x32000.size a
  hwx0_3 : ∀ i : grid0.Coords, EltTy.bits .f32 = 32 ∨ (Rect.block (s := S3200x32000) S3200x640.size (cc0_transform_3 i) (hinb0_3 i)).WholeWords (EltTy.packing .f32)

variable [Facts₀]

def gather_S128x32000_S3200x1_S128x3200_0_1_n_n_1_1_1281 : GatherDims S128x32000 S3200x1 S128x3200 where
  offsetDims := [0]
  collapsedSliceDims := [1]
  operandBatchingDims := []
  startIndicesBatchingDims := []
  startIndexMap := [1]
  indexVectorDim := 1
  sliceSizes := ![128, 1]
  wf := gather_S128x32000_S3200x1_S128x3200_0_1_n_n_1_1_1281_wf
def dot_S3200x128_S640x128_S3200x640_1_1_0_0_n_n : DotDims S3200x128 S640x128 S3200x640 where
  lhsContracting := [1]
  rhsContracting := [1]
  lhsNonContracting := [0]
  rhsNonContracting := [0]
  lhsBatch := []
  rhsBatch := []
  wf := dot_S3200x128_S640x128_S3200x640_1_1_0_0_n_n_wf

abbrev win0_0 : Pipeline.Window sig grid0 :=
  Pipeline.Window.ofSpec (Memref.whole main_v6) S3200x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S640x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x640.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S3200x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x50 : Shape := ⟨2, ![64, 50]⟩
abbrev S128x32000 : Shape := ⟨2, ![128, 32000]⟩
abbrev S128 : Shape := ⟨1, ![128]⟩
abbrev S32000x128 : Shape := ⟨2, ![32000, 128]⟩
abbrev S32000 : Shape := ⟨1, ![32000]⟩
abbrev S3200 : Shape := ⟨1, ![3200]⟩
abbrev S_ : Shape := ⟨0, ![]⟩
abbrev S3200x1 : Shape := ⟨2, ![3200, 1]⟩
abbrev S3200x128 : Shape := ⟨2, ![3200, 128]⟩
abbrev S1x128 : Shape := ⟨2, ![1, 128]⟩
abbrev S3200x32000 : Shape := ⟨2, ![3200, 32000]⟩
abbrev S1x32000 : Shape := ⟨2, ![1, 32000]⟩

abbrev nBuf : Space → Nat
  | .hbm => 39
  | .vmem => 0
  | .smem => 0
  | _ => 0

abbrev bufTy : (tb : Table) → Fin (tcTables nBuf tb) → BufTy
  | .hbm, ⟨0, _⟩ => ⟨S64x50, .i32⟩
  | .hbm, ⟨1, _⟩ => ⟨S128x32000, .f32⟩
  | .hbm, ⟨2, _⟩ => ⟨S128, .f32⟩
  | .hbm, ⟨3, _⟩ => ⟨S32000x128, .f32⟩
  | .hbm, ⟨4, _⟩ => ⟨S32000, .f32⟩
  | .hbm, ⟨5, _⟩ => ⟨S3200, .i32⟩
  | .hbm, ⟨6, _⟩ => ⟨S32000x128, .f32⟩
  | .hbm, ⟨7, _⟩ => ⟨S_, .i32⟩
  | .hbm, ⟨8, _⟩ => ⟨S3200, .i32⟩
  | .hbm, ⟨9, _⟩ => ⟨S3200, .i1⟩
  | .hbm, ⟨10, _⟩ => ⟨S_, .i32⟩
  | .hbm, ⟨11, _⟩ => ⟨S3200, .i32⟩
  | .hbm, ⟨12, _⟩ => ⟨S3200, .i32⟩
  | .hbm, ⟨13, _⟩ => ⟨S3200, .i32⟩
  | .hbm, ⟨14, _⟩ => ⟨S3200x1, .i32⟩
  | .hbm, ⟨15, _⟩ => ⟨S3200x128, .f32⟩
  | .hbm, ⟨16, _⟩ => ⟨S1x128, .f32⟩
  | .hbm, ⟨17, _⟩ => ⟨S3200x128, .f32⟩
  | .hbm, ⟨18, _⟩ => ⟨S3200x128, .f32⟩
  | .hbm, ⟨19, _⟩ => ⟨S128x32000, .f32⟩
  | .hbm, ⟨20, _⟩ => ⟨S3200x32000, .f32⟩
  | .hbm, ⟨21, _⟩ => ⟨S1x32000, .f32⟩
  | .hbm, ⟨22, _⟩ => ⟨S3200x32000, .f32⟩
  | .hbm, ⟨23, _⟩ => ⟨S3200x32000, .f32⟩
  | .hbm, ⟨24, _⟩ => ⟨S_, .f32⟩
  | .hbm, ⟨25, _⟩ => ⟨S32000, .f32⟩
  | .hbm, ⟨26, _⟩ => ⟨S_, .f32⟩
  | .hbm, ⟨27, _⟩ => ⟨S32000, .f32⟩
  | .hbm, ⟨28, _⟩ => ⟨S32000, .f32⟩
  | .hbm, ⟨29, _⟩ => ⟨S1x32000, .f32⟩
  | .hbm, ⟨30, _⟩ => ⟨S3200x32000, .f32⟩
  | .hbm, ⟨31, _⟩ => ⟨S3200x32000, .f32⟩
  | .hbm, ⟨32, _⟩ => ⟨S3200x32000, .f32⟩
  | .hbm, ⟨33, _⟩ => ⟨S_, .f32⟩
  | .hbm, ⟨34, _⟩ => ⟨S32000, .f32⟩
  | .hbm, ⟨35, _⟩ => ⟨S1x32000, .f32⟩
  | .hbm, ⟨36, _⟩ => ⟨S1x32000, .f32⟩
  | .hbm, ⟨37, _⟩ => ⟨S3200x32000, .f32⟩
  | .hbm, ⟨38, _⟩ => ⟨S3200x32000, .f32⟩
  | _, _ => ⟨S64x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_cst : Ref sig .tc := ⟨.hbm, 24, rfl⟩
abbrev main_call0_v0 : Ref sig .tc := ⟨.hbm, 25, rfl⟩
abbrev main_call0_cst_0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_cst_1 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_v17 : Ref sig .tc := ⟨.hbm, 38, rfl⟩

abbrev nD : Nat := 1
abbrev τ : Topo := Topo.v7x

variable {F : FTy → Type} [FloatOps F]

class Facts₀ : Prop where
  shapeCasts_S64x50_S3200 : S64x50.ShapeCasts S3200
  transposes_S128x32000_S32000x128_1_0 : S128x32000.Transposes [1, 0] S32000x128
  bcast_S_S3200 : S_.BroadcastsInDim S3200 (![] : Fin 0 → Fin S3200.rank)
  bcast_S3200_S3200x1_0 : S3200.BroadcastsInDim S3200x1 (![0] : Fin 1 → Fin S3200x1.rank)
  bcast_S128_S1x128_1 : S128.BroadcastsInDim S1x128 (![1] : Fin 1 → Fin S1x128.rank)
  bcast_S1x128_S3200x128_0_1 : S1x128.BroadcastsInDim S3200x128 (![0, 1] : Fin 2 → Fin S3200x128.rank)
  transposes_S32000x128_S128x32000_1_0 : S32000x128.Transposes [1, 0] S128x32000
  bcast_S32000_S1x32000_1 : S32000.BroadcastsInDim S1x32000 (![1] : Fin 1 → Fin S1x32000.rank)
  bcast_S1x32000_S3200x32000_0_1 : S1x32000.BroadcastsInDim S3200x32000 (![0, 1] : Fin 2 → Fin S3200x32000.rank)
  reducesTo_S3200x32000_S32000_d0 : S3200x32000.ReducesTo [0] S32000
  h_S_ : 0 < S_.numel
  bcast_S_S32000 : S_.BroadcastsInDim S32000 (![] : Fin 0 → Fin S32000.rank)
  gather_S32000x128_S3200x1_S3200x128_1_0_n_n_0_1_1128_wf : GatherDims.WF S32000x128 S3200x1 S3200x128 [1] [0] [] [0] [] 1 ![1, 128]
  dot_S3200x128_S128x32000_S3200x32000_1_0_0_1_n_n_wf : DotDims.WF S3200x128 S128x32000 S3200x32000 [1] [0] [0] [1] [] []

variable [Facts₀]

def gather_S32000x128_S3200x1_S3200x128_1_0_n_n_0_1_1128 : GatherDims S32000x128 S3200x1 S3200x128 where
  offsetDims := [1]
  collapsedSliceDims := [0]
  operandBatchingDims := []
  startIndicesBatchingDims := []
  startIndexMap := [0]
  indexVectorDim := 1
  sliceSizes := ![1, 128]
  wf := gather_S32000x128_S3200x1_S3200x128_1_0_n_n_0_1_1128_wf
def dot_S3200x128_S128x32000_S3200x32000_1_0_0_1_n_n : DotDims S3200x128 S128x32000 S3200x32000 where
  lhsContracting := [1]
  rhsContracting := [0]
  lhsNonContracting := [0]
  rhsNonContracting := [1]
  lhsBatch := []
  rhsBatch := []
  wf := dot_S3200x128_S128x32000_S3200x32000_1_0_0_1_n_n_wf

class Facts : Prop extends Facts₀ where

variable [Facts]
-- ==== Proof.Spec.lean ====
/-
  The mathematics both programs compute, and the two laws that join them.

  A batch of 3200 tokens (a 64 × 50 array of 32-bit words) selects columns of `W_A : [128, 32000]`; a negative word
  `w` is first wrapped to `w + 32000`, and the wrapped word, read signed, is clamped into `[0, 31999]` (what the
  gather of both programs does with any word). Token `t`'s embedding is that column plus `b_A`; its logit for vocabulary
  entry `v` is the inner product of the embedding with row `v` of `W_B : [32000, 128]`, plus `b_B v`. The result is the
  log-softmax of each COLUMN `v` of the [3200, 32000] logits, taken over the 3200 tokens:

      out t v = L t v − (M v + log (∑ₖ exp (L k v − M v))),      M v = maxₖ L k v.

  That is the arrangement of `out` below. The other arrangement subtracts in two steps,
  `(L t v − M v) − log (0 + ∑ₖ exp (L k v − M v))`, with `M v` taken once more against `−∞`. On the extended reals the two
  agree as soon as `M v` and the logarithm are real numbers (`column_law`), which they are when every logit of the column is
  real (`fold_max_real`, `sum_exp_real`); and a logit is real when the entries of the four float arrays are (`logit_real`).

  The range law (`wrapped_in_range`): a word in `[−32000, 32000)` wraps to a word in `[0, 31999]`.
-/
import Idealize.ShloMosaic.PureOps.Ideal
import Idealize.ShloMosaic.PureOps.Ideal.Laws
import Idealize.ShloMosaic.Lib.ValueIdx

noncomputable section

open scoped BigOperators

namespace Cert.TokenLogSoftmax

open Idealize.ShloMosaic Idealize.ShloMosaic.ValueIdx

/-! ## The function -/

abbrev Tokens := (⟨2, ![64, 50]⟩ : Shape).Idx → BitVec 32
abbrev ArrWA := (⟨2, ![128, 32000]⟩ : Shape).Idx → EReal
abbrev ArrBA := (⟨1, ![128]⟩ : Shape).Idx → EReal
abbrev ArrWB := (⟨2, ![32000, 128]⟩ : Shape).Idx → EReal
abbrev ArrBB := (⟨1, ![32000]⟩ : Shape).Idx → EReal

/-- Token `t`'s word: entry `(t / 50, t % 50)` of the 64 × 50 batch (the batch flattened row by row). -/
def tokenWord (x : Tokens) (t : Fin 3200) : BitVec 32 :=
  x (ix2 (⟨t.val / 50, by omega⟩ : Fin 64) (⟨t.val % 50, by omega⟩ : Fin 50))

/-- A negative word `w` counts from the end: it becomes `w + 32000`; any other word stays. -/
def wrapWord (w : BitVec 32) : BitVec 32 :=
  Scalar.select (IntOp.cmpi .slt w 0#32) (IntOp.addi w 32000#32) w

/-- The column of `W_A` token `t` selects: its wrapped word read signed and clamped into `[0, 31999]`. -/
def column (x : Tokens) (t : Fin 3200) : Fin 32000 :=
  ⟨min (wrapWord (tokenWord x t)).toInt.toNat 31999, by omega⟩

/-- Token `t`'s embedding, coordinate `k`. -/
def embed (x : Tokens) (WA : ArrWA) (bA : ArrBA) (t : Fin 3200) (k : Fin 128) : EReal :=
  WA (ix2 k (column x t)) + bA (ix1 k)

/-- The logit of token `t` for vocabulary entry `v`. -/
def logit (x : Tokens) (WA : ArrWA) (bA : ArrBA) (WB : ArrWB) (bB : ArrBB) (t : Fin 3200) (v : Fin 32000) : EReal :=
  (∑ k : Fin 128, embed x WA bA t k * WB (ix2 v k)) + bB (ix1 v)

/-- The maximum of a column of `n` extended reals, from `−∞`. -/
def colMax {n : Nat} (L : Fin n → EReal) : EReal := Finset.univ.fold max ⊥ L

/-- The log-softmax of a column, entry `t`: the entry minus (the maximum plus the log of the sum of shifted exponentials). -/
def colLogSoftmax {n : Nat} (L : Fin n → EReal) (t : Fin n) : EReal :=
  L t - (colMax L + Ideal.log (∑ k : Fin n, Ideal.exp (L k - colMax L)))

/-- The whole result: entry `(t, v)` is the log-softmax, over the tokens, of column `v` of the logits. -/
def result (x : Tokens) (WA : ArrWA) (bA : ArrBA) (WB : ArrWB) (bB : ArrBB) : (⟨2, ![3200, 32000]⟩ : Shape).Idx → EReal :=
  fun i => colLogSoftmax (fun k : Fin 3200 => logit x WA bA WB bB k ⟨(i 1).val, idx2_lt1 i⟩) ⟨(i 0).val, idx2_lt0 i⟩

theorem result_apply (x : Tokens) (WA : ArrWA) (bA : ArrBA) (WB : ArrWB) (bB : ArrBB) (t : Fin 3200) (v : Fin 32000) :
    result x WA bA WB bB (ix2 t v) = colLogSoftmax (fun k : Fin 3200 => logit x WA bA WB bB k v) t := rfl

/-- Every token word lies in `[−32000, 32000)`, said by the two signed comparisons a range test makes
    (`4294935296` is the 32-bit word of `−32000`). -/
def TokensInRange (x : Tokens) : Prop :=
  ∀ i, IntOp.cmpi .sge (x i) 4294935296#32 = 1#1 ∧ IntOp.cmpi .slt (x i) 32000#32 = 1#1

/-! ## Real entries -/

/-- Every entry of an array of extended reals is a real number. -/
def AllReal {ι : Type} (a : ι → EReal) : Prop := ∀ i, ∃ r : ℝ, a i = (r : EReal)

/-- A finite sum of real numbers, summed as extended reals, is their real sum. -/
theorem coe_sum {ι : Type} (s : Finset ι) (g : ι → ℝ) : ∑ k ∈ s, (g k : EReal) = ((∑ k ∈ s, g k : ℝ) : EReal) := by
  classical
  induction s using Finset.induction_on with
  | empty => simp
  | insert a s ha ih => rw [Finset.sum_insert ha, Finset.sum_insert ha, ih, EReal.coe_add]

/-- A logit built from real entries is real. -/
theorem logit_real {x : Tokens} {WA : ArrWA} {bA : ArrBA} {WB : ArrWB} {bB : ArrBB}
    (hWA : AllReal WA) (hbA : AllReal bA) (hWB : AllReal WB) (hbB : AllReal bB) (t : Fin 3200) (v : Fin 32000) :
    ∃ r : ℝ, logit x WA bA WB bB t v = (r : EReal) := by
  choose rWA hrWA using hWA
  choose rbA hrbA using hbA
  choose rWB hrWB using hWB
  choose rbB hrbB using hbB
  refine ⟨(∑ k : Fin 128, (rWA (ix2 k (column x t)) + rbA (ix1 k)) * rWB (ix2 v k)) + rbB (ix1 v), ?_⟩
  unfold logit embed
  simp only [hrWA, hrbA, hrWB, hrbB, ← EReal.coe_add, ← EReal.coe_mul, coe_sum]

/-- The maximum, from `−∞`, of a nonempty finite family of reals is real. -/
theorem fold_max_real {ι : Type} (s : Finset ι) (hs : s.Nonempty) (f : ι → EReal) (hf : AllReal f) :
    ∃ μ : ℝ, s.fold max ⊥ f = (μ : EReal) := by
  classical
  induction hs using Finset.Nonempty.cons_induction with
  | singleton a =>
    obtain ⟨r, hr⟩ := hf a
    exact ⟨r, by rw [Finset.fold_singleton, hr, max_eq_left bot_le]⟩
  | cons a s ha hs ih =>
    obtain ⟨r, hr⟩ := hf a
    obtain ⟨μ, hμ⟩ := ih
    refine ⟨max r μ, ?_⟩
    rw [Finset.fold_cons, hμ, hr]
    rcases le_total r μ with h | h
    · rw [max_eq_right h, max_eq_right (EReal.coe_le_coe_iff.2 h)]
    · rw [max_eq_left h, max_eq_left (EReal.coe_le_coe_iff.2 h)]

/-- The sum of the exponentials of a nonempty column of reals, each shifted by a real, is a positive real. -/
theorem sum_exp_real {n : Nat} (hn : 0 < n) (L : Fin n → EReal) (hL : AllReal L) (μ : ℝ) :
    ∃ σ : ℝ, 0 < σ ∧ ∑ k : Fin n, Ideal.exp (L k - (μ : EReal)) = (σ : EReal) := by
  choose r hr using hL
  refine ⟨∑ k : Fin n, Real.exp (r k - μ), ?_, ?_⟩
  · haveI : Nonempty (Fin n) := ⟨⟨0, hn⟩⟩
    exact Finset.sum_pos (fun k _ => Real.exp_pos _) Finset.univ_nonempty
  · simp only [hr, ← EReal.coe_sub, Ideal.exp_coe, coe_sum]

/-! ## The law between the two arrangements -/

/-- On a nonempty column of reals the one-step arrangement `L t − (M + log S)` and the two-step arrangement
    `(L t − M') − log (0 + S')`, with `M' = max (−∞) M` and `S'` the sum shifted by `M'`, are the same extended real. -/
theorem column_law {n : Nat} (hn : 0 < n) (L : Fin n → EReal) (hL : AllReal L) (t : Fin n) :
    (L t - max ⊥ (colMax L)) - Ideal.log (0 + ∑ k : Fin n, Ideal.exp (L k - max ⊥ (colMax L))) = colLogSoftmax L t := by
  haveI : Nonempty (Fin n) := ⟨⟨0, hn⟩⟩
  obtain ⟨μ, hμ⟩ := fold_max_real Finset.univ Finset.univ_nonempty L hL
  obtain ⟨σ, hσ, hS⟩ := sum_exp_real hn L hL μ
  obtain ⟨r, hr⟩ := hL t
  unfold colLogSoftmax
  rw [max_eq_right bot_le, zero_add]
  unfold colMax
  rw [hμ, hS, hr, Ideal.log_coe, if_neg (not_le.2 hσ), ← EReal.coe_sub, ← EReal.coe_sub, ← EReal.coe_add, ← EReal.coe_sub]
  exact congrArg _ (by ring)

/-! ## The range law -/

/-- A one-bit word made from a Boolean is `1` exactly when the Boolean is true. -/
theorem ofBool_eq_one {b : Bool} : BitVec.ofBool b = 1#1 ↔ b = true := by cases b <;> decide

/-- The signed comparisons of two words, read on their signed values. -/
theorem cmpi_slt_iff (a b : BitVec 32) : IntOp.cmpi .slt a b = 1#1 ↔ a.toInt < b.toInt := by
  unfold IntOp.cmpi; rw [ofBool_eq_one]; simp [BitVec.slt]
theorem cmpi_sle_iff (a b : BitVec 32) : IntOp.cmpi .sle a b = 1#1 ↔ a.toInt ≤ b.toInt := by
  unfold IntOp.cmpi; rw [ofBool_eq_one]; simp [BitVec.sle]
theorem cmpi_sge_iff (a b : BitVec 32) : IntOp.cmpi .sge a b = 1#1 ↔ b.toInt ≤ a.toInt := by
  unfold IntOp.cmpi; rw [ofBool_eq_one]; simp [BitVec.sle]

/-- A word in `[−32000, 32000)`, wrapped, is a word in `[0, 31999]`: the two comparisons a range mask makes are both true. -/
theorem wrapped_in_range (w : BitVec 32) (hlo : IntOp.cmpi .sge w 4294935296#32 = 1#1) (hhi : IntOp.cmpi .slt w 32000#32 = 1#1) :
    IntOp.cmpi .sge (wrapWord w) 0#32 = 1#1 ∧ IntOp.cmpi .sle (wrapWord w) 31999#32 = 1#1 := by
  have c0 : (0#32 : BitVec 32).toInt = 0 := by decide
  have c1 : (4294935296#32 : BitVec 32).toInt = -32000 := by decide
  have c2 : (32000#32 : BitVec 32).toInt = 32000 := by decide
  have c3 : (31999#32 : BitVec 32).toInt = 31999 := by decide
  rw [cmpi_sge_iff, c1] at hlo
  rw [cmpi_slt_iff, c2] at hhi
  rw [cmpi_sge_iff, cmpi_sle_iff, c0, c3]
  unfold wrapWord
  by_cases hneg : w.toInt < 0
  · have hc : IntOp.cmpi .slt w 0#32 = 1#1 := by rw [cmpi_slt_iff, c0]; exact hneg
    rw [hc, ValueIdx.select_one]
    have hadd : (IntOp.addi w 32000#32).toInt = w.toInt + 32000 := by
      unfold IntOp.addi
      rw [BitVec.toInt_add, c2, Int.bmod_def]
      split <;> omega
    rw [hadd]; omega
  · have hc : IntOp.cmpi .slt w 0#32 = 0#1 := by
      refine ValueIdx.eq_zero_of_ne_one fun h => hneg ?_
      rw [cmpi_slt_iff, c0] at h; exact h
    rw [hc, ValueIdx.select_zero]
    omega

end Cert.TokenLogSoftmax

end
-- ==== Proof.PreDecode.lean ====
/-
  What the precondition says, entry by entry.

  The printed predicate is a chain of conjunctions of six all-reductions by AND. Each reduction that comes out 1 had a 1
  at every operand entry. For a float array the entry says |v| < +∞ on the extended reals, and an extended real whose
  absolute value max v (−v) is below ⊤ is neither ⊤ nor ⊥: it is a real number. For the token words the two entries are
  the two signed comparisons against the constants −32000 and 32000, which a scalar broadcast reads everywhere.
-/
import proofs.«419909_j12833362280545_1_alg».proof.Pre_finite_inputs
import proofs.«419909_j12833362280545_1_alg».proof.Proof.Gen.Pre_finite_inputs
import proofs.«419909_j12833362280545_1_alg».proof.Proof.Spec
import Idealize.ShloMosaic.Lib.ReduceAll
import Idealize.ShloMosaic.Lib.ValueIdx
import Idealize.ShloMosaic.PureOps.Ideal.Laws

noncomputable section

namespace Cert.Pre_finite_inputs.Decode

open Cert.Pre_finite_inputs Idealize.ShloMosaic Idealize.ShloMosaic.ValueIdx Cert.TokenLogSoftmax

variable [Cert.Pre_finite_inputs.Facts]

/-- The shape of a scalar has one index. -/
private instance subsingleton_scalar_idx : Subsingleton S_.Idx := ⟨fun a b => funext fun d => d.elim0⟩

/-- The 32-bit pattern `0x7F800000` denotes `+∞`. -/
private theorem ofBits_inf : Ideal.ofBits .f32 0x7F800000#32 = (⊤ : EReal) := by
  simp [Ideal.ofBits, Ideal.ieee]

/-- An extended real whose absolute value `max v (−v)` compares below `+∞` is a real number. -/
private theorem real_of_abs_lt_top (v : EReal)
    (h : FloatOps.cmpf (F := Ideal) (φ := .f32) .olt (FloatOps.hostAbsf (F := Ideal) (φ := .f32) v)
      (FloatOps.ofBits (F := Ideal) .f32 0x7F800000#32) = 1#1) : ∃ r : ℝ, v = (r : EReal) := by
  rw [Ideal.hostAbsf_def, Ideal.cmpf_def, Ideal.absf_def, Ideal.ofBits_def, ofBits_inf] at h
  unfold Ideal.cmp at h
  rw [ofBool_eq_one, decide_eq_true_eq] at h
  induction v using EReal.rec with
  | bot => simp at h
  | coe r => exact ⟨r, rfl⟩
  | top => simp at h

/-- THE PRECONDITION DECODED: where the printed predicate is all ones, every entry of the four float arrays is a real
    number and every token word is in `[−32000, 32000)`. -/
theorem of_pre (x : Tokens) (WA : ArrWA) (bA : ArrBA) (WB : ArrWB) (bB : ArrBB)
    (h : Cert.Pre_finite_inputs.fn (F := Ideal) x WA bA WB bB = fun _ => 1#1) :
    AllReal WA ∧ AllReal bA ∧ AllReal WB ∧ AllReal bB ∧ TokensInRange x := by
  have e := congrFun h ValueIdx.ix0
  dsimp only [Cert.Pre_finite_inputs.fn, Cert.Pre_finite_inputs.fn_part1, andi] at e
  rw [IntOp.andi_eq_one, IntOp.andi_eq_one, IntOp.andi_eq_one, IntOp.andi_eq_one, IntOp.andi_eq_one] at e
  obtain ⟨⟨⟨⟨⟨hWA, hbA⟩, hWB⟩, hbB⟩, hlo⟩, hhi⟩ := e
  refine ⟨fun i => ?_, fun i => ?_, fun i => ?_, fun i => ?_, fun i => ⟨?_, ?_⟩⟩
  · exact real_of_abs_lt_top _ (Host.reduce_andi_all _ _ _ _ _ hWA i)
  · exact real_of_abs_lt_top _ (Host.reduce_andi_all _ _ _ _ _ hbA i)
  · exact real_of_abs_lt_top _ (Host.reduce_andi_all _ _ _ _ _ hWB i)
  · exact real_of_abs_lt_top _ (Host.reduce_andi_all _ _ _ _ _ hbB i)
  · exact Host.reduce_andi_all _ _ _ _ _ hlo i
  · exact Host.reduce_andi_all _ _ _ _ _ hhi i

end Cert.Pre_finite_inputs.Decode

end
-- ==== Proof.LibTypedRef.lean ====
/-
  A typed reference to a host buffer carries the buffer's type as an equation, and a value moves between the two
  types along it. Moving there and back is the identity, whatever the equation's proof: the one fact a reading of a
  called function's operations needs to cancel the pairs of moves its composed term is full of.
-/
import Idealize.ShloMosaic.Lib.StableHlo

namespace Idealize.ShloMosaic.StableHlo.TRef

/-- Contents moved to the buffer's own type and back are the contents. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- Contents moved to the value's type and back are the contents. -/
theorem toBuf_ofBuf {sig : RefSig} {Val : EltTy → Type} {T : BufTy} (x : TRef sig T) (v : x.ref.ty.Contents Val) :
    x.toBuf (x.ofBuf v) = v := by
  obtain ⟨r, h, h1, h2⟩ := x
  subst h
  rfl

end Idealize.ShloMosaic.StableHlo.TRef
-- ==== Proof.KernelHost.lean ====
/-
  What the kernel's one region finds in the three arrays it reads, entry by entry.

  Before the region the host lays the 64 × 50 batch out as 3200 words, wraps each negative word (`w + 32000`), tests
  the wrapped word against `[0, 31999]`, gathers for each token the column of `W_A` its wrapped word selects (the
  gather clamps the word, read signed, into `[0, 31999]`), and keeps the gathered entry where the test held and a
  fill value elsewhere; it then transposes, adds the bias row `b_A` and narrows the float format. When every token
  word is in `[−32000, 32000)` the test holds at every token (the range law), so the array is the specification's
  embeddings. The other two arrays are `W_B` in the narrower format (the identity on extended reals) and `b_B` laid
  out as one row.
-/
import proofs.«419909_j12833362280545_1_alg».proof.Proof.Gen.KernelIdeal.Frame
import proofs.«419909_j12833362280545_1_alg».proof.Proof.Spec
import proofs.«419909_j12833362280545_1_alg».proof.Proof.LibTypedRef
import Idealize.ShloMosaic.Lib.StableHlo.Run
import Idealize.ShloMosaic.Lib.Pipeline.Value
import Idealize.ShloMosaic.Lib.ValueIdx

noncomputable section

namespace Cert.KernelIdeal.HostSide

open Cert.KernelIdeal Cert.KernelIdeal.Gen Idealize.ShloMosaic Idealize.ShloMosaic.TcCoe Idealize.SL.Sem
open Idealize.ShloMosaic.ValueIdx Cert.TokenLogSoftmax
open Idealize.ShloMosaic.StableHlo

variable (m : (ℓ : Loc nD τ sig) → Buf (Elt Ideal) ℓ)

/-- Core `c`'s five argument arrays as launched. -/
abbrev argX (c : Dev nD) : Tokens := m ((c : Thread nD τ).loc main_arg0)
abbrev argWA (c : Dev nD) : ArrWA := m ((c : Thread nD τ).loc main_arg1)
abbrev argBA (c : Dev nD) : ArrBA := m ((c : Thread nD τ).loc main_arg2)
abbrev argWB (c : Dev nD) : ArrWB := m ((c : Thread nD τ).loc main_arg3)
abbrev argBB (c : Dev nD) : ArrBB := m ((c : Thread nD τ).loc main_arg4)

/-! ## The take, stage by stage, as functions of the argument arrays -/

/-- The batch flattened row by row: 3200 words. -/
private def words (x : Tokens) : IVec S3200 32 := shapeCast S3200 x shapeCasts_S64x50_S3200

/-- Each word wrapped: a negative word counts from the end. -/
private def wrapped (x : Tokens) : IVec S3200 32 :=
  select (cmpi .slt (words x) (broadcastInDim S3200 ![] bcast_S_S3200 (constantI S_ 32 0#32)))
    (addi (words x) (broadcastInDim S3200 ![] bcast_S_S3200 (constantI S_ 32 32000#32))) (words x)

/-- The wrapped words as a column of start indices. -/
private def startCol (x : Tokens) : IVec S3200x1 32 := broadcastInDim S3200x1 ![0] bcast_S3200_S3200x1_0 (wrapped x)

/-- The in-range mask: both comparisons of each start index, reduced by "and" over the unit axis. -/
private def inRange (x : Tokens) : IVec S3200 1 :=
  Host.reduce IntOp.andi
    (andi (cmpi .sge (startCol x) (broadcastInDim S3200x1 ![] bcast_S_S3200x1 (constantI S_ 32 0#32)))
      (cmpi .sle (startCol x) (broadcastInDim S3200x1 ![0, 1] bcast_S1x1_S3200x1_0_1
        (broadcastInDim S1x1 ![1] bcast_S1_S1x1_1 (constantI S1 32 31999#32)))))
    (constantI S_ 1 1#1) reducesTo_S3200x1_S3200_d1 h_S_

/-- The gathered columns of `W_A`. -/
private def gathered (x : Tokens) (WA : ArrWA) : FVec Ideal S128x3200 .f32 :=
  Host.gather gather_S128x32000_S3200x1_S128x3200_0_1_n_n_1_1_1281 WA (startCol x)

/-- The take's result: the gathered column where the mask holds, the fill elsewhere. -/
private def taken (x : Tokens) (WA : ArrWA) : FVec Ideal S128x3200 .f32 :=
  select (broadcastInDim S128x3200 ![1] bcast_S3200_S128x3200_1 (inRange x)) (gathered x WA)
    (broadcastInDim S128x3200 ![] bcast_S_S128x3200 (constant (F := Ideal) S_ .f32 0x7FC00000#32))

/-- The embeddings array: the take transposed, plus the bias row, in the narrower float format. -/
private def embedded (x : Tokens) (WA : ArrWA) (bA : ArrBA) : FVec Ideal S3200x128 .bf16 :=
  truncf .bf16 (addf (transpose S3200x128 [1, 0] (taken x WA) transposes_S128x3200_S3200x128_1_0)
    (broadcastInDim S3200x128 ![0, 1] bcast_S1x128_S3200x128_0_1 (broadcastInDim S1x128 ![1] bcast_S128_S1x128_1 bA))) bitsLt_bf16_f32

/-! ## Each stage read at an index -/

/-- The flattened batch at `t` is token `t`'s word: position `t` of the rows laid end to end is row `t / 50`, column `t % 50`. -/
private theorem words_apply (x : Tokens) (t : Fin 3200) : words x (ix1 t) = tokenWord x t := by
  unfold words tokenWord
  refine shapeCast_apply x shapeCasts_S64x50_S3200 (ix1 t) _ ?_
  rw [Shape.rowMajor_val_two, Shape.rowMajor_val_one]
  show t.val / 50 * 50 + t.val % 50 = t.val
  omega

/-- The wrapped words at `t`: the specification's wrap of token `t`'s word (the two constants are read the same everywhere). -/
private theorem wrapped_apply (x : Tokens) (t : Fin 3200) : wrapped x (ix1 t) = wrapWord (tokenWord x t) := by
  rw [← words_apply x t]
  unfold wrapped wrapWord
  generalize words x = w
  rfl

/-- The column of start indices at `(t, 0)`. -/
private theorem startCol_apply (x : Tokens) (t : Fin 3200) (q : Fin 1) : startCol x (ix2 t q) = wrapWord (tokenWord x t) := by
  unfold startCol
  refine (broadcastInDim_apply _ _ _ (ix2 t q) (ix1 t) ?_).trans (wrapped_apply x t)
  intro a
  match a with
  | ⟨0, _⟩ => rfl

/-- A left fold by "and" from 1 over words that are all 1 is 1. -/
private theorem foldl_andi_one {ι : Type} (f : ι → BitVec 1) (hf : ∀ i, f i = 1#1) :
    ∀ (l : List ι) (init : BitVec 1), init = 1#1 → l.foldl (fun r n => IntOp.andi r (f n)) init = 1#1
  | [], _, h => h
  | a :: l, init, h => foldl_andi_one f hf l _ (by show IntOp.andi init (f a) = 1#1; rw [h, hf a]; rfl)

/-- When every token word is in range, the mask holds at every token: both comparisons of the wrapped word are true
    (the range law), and the reduction over the unit axis meets only 1s. -/
private theorem inRange_apply (x : Tokens) (hx : TokensInRange x) (t : Fin 3200) : inRange x (ix1 t) = 1#1 := by
  unfold inRange
  rw [Host.reduce_eq_foldl]
  refine foldl_andi_one _ (fun i => ?_) _ _ rfl
  obtain ⟨p, q, rfl⟩ : ∃ (p : Fin 3200) (q : Fin 1), i = ix2 p q := ⟨i 0, i 1, eq_ix2 i⟩
  have hw := wrapped_in_range (tokenWord x p) (hx _).1 (hx _).2
  show IntOp.andi (IntOp.cmpi .sge (startCol x (ix2 p q)) 0#32) (IntOp.cmpi .sle (startCol x (ix2 p q)) 31999#32) = 1#1
  rw [startCol_apply, hw.1, hw.2]
  rfl

/-- The gather's dimension numbers. -/
private abbrev takeD : GatherDims S128x32000 S3200x1 S128x3200 := gather_S128x32000_S3200x1_S128x3200_0_1_n_n_1_1_1281

/-- The gather at `(k, t)`: row `k` of `W_A` (the offset axis) at the column token `t` selects (the collapsed axis: its
    start index read signed and clamped into `[0, 31999]`). -/
private theorem gathered_apply (x : Tokens) (WA : ArrWA) (k : Fin 128) (t : Fin 3200) :
    gathered x WA (ix2 k t) = WA (ix2 k (column x t)) := by
  unfold gathered Host.gather
  refine congrArg WA (funext fun a => Fin.ext ?_)
  match a with
  | ⟨0, _⟩ =>
    show takeD.start (ix2 k t) (startCol x) 0 + takeD.batchCoord (ix2 k t) 0 + takeD.offCoord (ix2 k t) 0 = k.val
    have hs : takeD.start (ix2 k t) (startCol x) 0 = 0 := by
      unfold GatherDims.start
      exact dif_neg (by decide)
    have ho : takeD.offCoord (ix2 k t) 0 = k.val := by
      unfold GatherDims.offCoord
      rw [dif_pos (by decide)]
      rfl
    rw [GatherDims.batchCoord_eq_zero _ _ _ List.not_mem_nil, hs, ho]
    omega
  | ⟨1, _⟩ =>
    show takeD.start (ix2 k t) (startCol x) 1 + takeD.batchCoord (ix2 k t) 1 + takeD.offCoord (ix2 k t) 1 = (column x t).val
    rw [GatherDims.batchCoord_eq_zero _ _ _ List.not_mem_nil, GatherDims.offCoord_eq_zero _ _ _ (by decide)]
    unfold GatherDims.start
    rw [dif_pos (show (1 : Fin 2) ∈ takeD.startIndexMap from List.mem_singleton.mpr rfl)]
    have hsi : takeD.siIdx (ix2 k t) ⟨List.idxOf (1 : Fin 2) takeD.startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi, startCol_apply]
    rfl

/-- The take at `(k, t)`, every token word in range: the mask holds, so the gathered entry is selected. -/
private theorem taken_apply (x : Tokens) (hx : TokensInRange x) (WA : ArrWA) (k : Fin 128) (t : Fin 3200) :
    taken x WA (ix2 k t) = WA (ix2 k (column x t)) := by
  unfold taken
  rw [select_apply]
  have hm : broadcastInDim S128x3200 ![1] bcast_S3200_S128x3200_1 (inRange x) (ix2 k t) = 1#1 :=
    (broadcastInDim_apply _ _ _ (ix2 k t) (ix1 t) (fun a => by match a with | ⟨0, _⟩ => rfl)).trans (inRange_apply x hx t)
  rw [hm, select_one, gathered_apply]

/-- The embeddings array at `(t, k)`: the transposed take plus the bias row, the change of float format the identity. -/
private theorem embedded_apply (x : Tokens) (hx : TokensInRange x) (WA : ArrWA) (bA : ArrBA) (t : Fin 3200) (k : Fin 128) :
    embedded x WA bA (ix2 t k) = embed x WA bA t k := by
  unfold embedded embed
  rw [truncf_apply, addf_apply]
  congr 1
  · refine (transpose_apply _ _ _ (ix2 t k) (ix2 k t) ?_).trans (taken_apply x hx WA k t)
    intro b
    match b with
    | ⟨0, _⟩ => rfl
    | ⟨1, _⟩ => rfl
  · refine (broadcastInDim_apply _ _ _ (ix2 t k) (ix2 (0 : Fin 1) k) ?_).trans ?_
    · intro a
      match a with
      | ⟨0, _⟩ => rfl
      | ⟨1, _⟩ => rfl
    · exact broadcastInDim_apply _ _ _ (ix2 (0 : Fin 1) k) (ix1 k) (fun a => by match a with | ⟨0, _⟩ => rfl)

/-! ## The three arrays the region reads -/

/-- The embeddings array as the region finds it is the composed stages at the argument arrays: the host operations
    before the region, read off in order. -/
private theorem V_embedded (c : Dev nD) :
    @Eq (S3200x128.Idx → EReal) (V m c main_v6) (embedded (argX m c) (argWA m c) (argBA m c)) := by
  dsimp only [Gen.V]
  simp only [Gen.hostOps0, Gen.hostOps0_1, Gen.hostOps0_2, List.flatten_cons, List.flatten_nil, List.append_nil, List.cons_append, List.nil_append]
  after_results_simp
  simp only [StableHlo.TRef.ofBuf_toBuf]
  rfl

/-- The embeddings array the region reads (window 0's array): entry `(t, k)` is token `t`'s embedding, coordinate `k`,
    when every token word is in range (so that the take's out-of-range fill is never selected). -/
theorem embed_at (c : Dev nD) (hx : TokensInRange (argX m c)) (t : Fin 3200) (k : Fin 128) :
    (V m c main_v6 : S3200x128.Idx → EReal) (ix2 t k) = embed (argX m c) (argWA m c) (argBA m c) t k :=
  (congrFun (V_embedded m c) (ix2 t k)).trans (embedded_apply _ hx _ _ t k)

/-- The projection matrix the region reads (window 1's array) is `W_B`, entry by entry (a change of float format is the identity). -/
theorem wb_at (c : Dev nD) (v : Fin 32000) (k : Fin 128) :
    (V m c main_v7 : S32000x128.Idx → EReal) (ix2 v k) = argWB m c (ix2 v k) := by
  have e : @Eq (S32000x128.Idx → EReal) (V m c main_v7)
      (truncf (F := Ideal) (s := S32000x128) (φ := .f32) .bf16 (argWB m c) bitsLt_bf16_f32) := by
    dsimp only [Gen.V]
    simp only [Gen.hostOps0, Gen.hostOps0_1, Gen.hostOps0_2, List.flatten_cons, List.flatten_nil, List.append_nil, List.cons_append, List.nil_append]
    after_results
  rw [e]
  rfl

/-- The bias row the region reads (window 2's array) is `b_B` laid out as one row. -/
theorem bb_at (c : Dev nD) (v : Fin 32000) :
    (V m c main_v8 : S1x32000.Idx → EReal) (ix2 (0 : Fin 1) v) = argBB m c (ix1 v) := by
  have e : (V m c main_v8 : S1x32000.Idx → EReal) = shapeCast S1x32000 (argBB m c) shapeCasts_S32000_S1x32000 := by
    dsimp only [Gen.V]
    simp only [Gen.hostOps0, Gen.hostOps0_1, Gen.hostOps0_2, List.flatten_cons, List.flatten_nil, List.append_nil, List.cons_append, List.nil_append]
    after_results
    rfl
  rw [e]
  refine shapeCast_apply _ _ _ _ ?_
  rw [Shape.rowMajor_val_two, Shape.rowMajor_val_one]
  show v.val = 0 * 32000 + v.val
  omega

end Cert.KernelIdeal.HostSide

end
-- ==== Proof.KernelBody.lean ====
/-
  The kernel body's one stored value, read at an entry of the output block.

  The body loads three blocks — the embeddings `x0 : [3200, 128]`, 640 rows of the projection matrix `x1 : [640, 128]`
  and their 640 biases `x2 : [1, 640]` —, forms the block of logits `L t j = ∑ₑ x0 t e · x1 j e + x2 0 j` (a matrix product
  into a zero accumulator, plus the bias row broadcast down the 3200 rows), and stores

      L t j − (M j + log (∑ₖ exp (L k j − M j))),      M j = maxₖ L k j from −∞,

  every reduction running down the 3200 rows of one column `j`. Read at `(t, j)` that is the specification's column
  log-softmax of column `j` of `L` (`pay_at`). The value is first split into the logits (`blockL`) and the column
  operations applied to them (`colTail`), each read at an entry by itself.
-/
import proofs.«419909_j12833362280545_1_alg».proof.Proof.Gen.KernelIdeal.Skeleton
import proofs.«419909_j12833362280545_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.TcCoe
open Idealize.ShloMosaic.ValueIdx Cert.TokenLogSoftmax

/-- The logits the body forms from its three loaded blocks: embeddings `x0 : [3200, 128]`, a block of 640 rows of the
    projection matrix `x1 : [640, 128]`, and the matching 640 biases `x2 : [1, 640]`. -/
def blockLogit (x0 : Vec Ideal S3200x128 .bf16) (x1 : Vec Ideal S640x128 .bf16) (x2 : Vec Ideal S1x640 .f32) (t : Fin 3200) (j : Fin 640) : EReal :=
  (∑ e : Fin 128, x0 (ix2 t e) * x1 (ix2 j e)) + x2 (ix2 (0 : Fin 1) j)

/-! ## The two halves of the stored value -/

/-- The block of logits as the body computes it. -/
def blockL (x0 : FVec Ideal S3200x128 .bf16) (x1 : FVec Ideal S640x128 .bf16) (x2 : FVec Ideal S1x640 .f32) : FVec Ideal S3200x640 .f32 :=
  addf (matmul dot_S3200x128_S640x128_S3200x640_1_1_0_0_n_n none (shapeCast S3200x128 x0 Gen.shapeCasts_S3200x128_S3200x128 : FVec Ideal S3200x128 .bf16)
      (shapeCast S640x128 x1 Gen.shapeCasts_S640x128_S640x128 : FVec Ideal S640x128 .bf16) (constant S3200x640 .f32 0x00000000#32))
    (broadcastTo S3200x640 (shapeCast S1x640 x2 Gen.shapeCasts_S1x640_S1x640 : FVec Ideal S1x640 .f32) Gen.broadcasts_S1x640_S3200x640)

/-- The column maxima of a [3200, 640] block, as a row. -/
def maxRow (L : FVec Ideal S3200x640 .f32) : FVec Ideal S1x640 .f32 :=
  shapeCast S1x640 (multiReduction .maximumf [0] S640 L 0xFF800000#32 Gen.reduces_S3200x640_S640 (.inl rfl) rfl) Gen.shapeCasts_S640_S1x640

/-- The column sums of the exponentials shifted by the column maxima, as a row. -/
def sumRow (L : FVec Ideal S3200x640 .f32) : FVec Ideal S1x640 .f32 :=
  shapeCast S1x640 (multiReduction .add [0] S640 (exp (subf L (broadcastTo S3200x640 (maxRow L) Gen.broadcasts_S1x640_S3200x640)))
    0x00000000#32 Gen.reduces_S3200x640_S640 (.inl rfl) rfl) Gen.shapeCasts_S640_S1x640

/-- What the body does with the block of logits: subtract, from every row, the row of (maximum + log of the shifted sum). -/
def colTail (L : FVec Ideal S3200x640 .f32) : FVec Ideal S3200x640 .f32 :=
  subf L (broadcastTo S3200x640 (addf (maxRow L) (log (sumRow L))) Gen.broadcasts_S1x640_S3200x640)

/-- The stored value is the column operations applied to the logits (the body's lines, regrouped). -/
theorem pay_eq (x0 : Vec Ideal S3200x128 .bf16) (x1 : Vec Ideal S640x128 .bf16) (x2 : Vec Ideal S1x640 .f32) :
    k0_pay1 (F := Ideal) x0 x1 x2 = colTail (blockL x0 x1 x2) := rfl

/-! ## Layout operations at an entry -/

/-- A [1, 640] row broadcast down 3200 rows reads, at `(t, j)`, the row at `j`. -/
theorem row_bcast (r : FVec Ideal S1x640 .f32) (t : Fin 3200) (j : Fin 640) :
    broadcastTo S3200x640 r Gen.broadcasts_S1x640_S3200x640 (ix2 t j) = r (ix2 (0 : Fin 1) j) :=
  broadcastTo_apply r _ (ix2 t j) (ix2 (0 : Fin 1) j) (fun a => match a with
    | ⟨0, _⟩ => by show 0 = if (1 : Nat) = 1 then 0 else _; rw [if_pos rfl]
    | ⟨1, _⟩ => by show j.val = if (640 : Nat) = 1 then 0 else j.val; rw [if_neg (by decide)])

/-- A vector of 640 entries recast as a [1, 640] row reads, at `(0, j)`, the vector at `j`. -/
theorem row_cast (u : FVec Ideal S640 .f32) (j : Fin 640) :
    shapeCast S1x640 u Gen.shapeCasts_S640_S1x640 (ix2 (0 : Fin 1) j) = u (ix1 j) :=
  shapeCast_apply u _ (ix2 (0 : Fin 1) j) (ix1 j) (by
    rw [Shape.rowMajor_val_one, Shape.rowMajor_val_two]; show j.val = 0 * 640 + j.val; omega)

/-- The bit pattern of `−∞` denotes the bottom of the extended reals. -/
theorem ofBits_neg_inf : Ideal.ofBits .f32 0xFF800000#32 = (⊥ : EReal) := by
  simp [Ideal.ofBits, Ideal.ieee]

/-- The index above column `j` with row `k` inserted is `(k, j)`. -/
theorem lift_col (j : Fin 640) (k : Fin 3200) :
    (Gen.reduces_S3200x640_S640).lift (ix1 j) k = ix2 k j :=
  funext fun a => Fin.ext (by match a with | ⟨0, _⟩ => rfl | ⟨1, _⟩ => rfl)

/-- A maximum taken down the rows of a [3200, 640] block from `−∞` is, at column `j`, the column's maximum. -/
theorem max_col (L : FVec Ideal S3200x640 .f32) (j : Fin 640) :
    multiReduction .maximumf [0] S640 L 0xFF800000#32 Gen.reduces_S3200x640_S640 (.inl rfl) rfl (ix1 j)
      = colMax (fun k : Fin 3200 => L (ix2 k j)) := by
  refine (Ideal.multiReduction_maximumf_single L 0xFF800000#32 Gen.reduces_S3200x640_S640 (.inl rfl) rfl (ix1 j)).trans ?_
  unfold colMax
  rw [Ideal.ofBits_def, ofBits_neg_inf]
  exact congrArg (Finset.univ.fold max ⊥) (funext fun k => congrArg L (lift_col j k))

/-- A sum taken down the rows of a [3200, 640] block is, at column `j`, the sum of the column. -/
theorem sum_col (E : FVec Ideal S3200x640 .f32) (j : Fin 640) :
    multiReduction .add [0] S640 E 0x00000000#32 Gen.reduces_S3200x640_S640 (.inl rfl) rfl (ix1 j)
      = ∑ k : Fin 3200, E (ix2 k j) := by
  refine (Ideal.multiReduction_add_single E 0x00000000#32 Gen.reduces_S3200x640_S640 (.inl rfl) rfl (ix1 j)).trans ?_
  exact Finset.sum_congr rfl fun k _ => congrArg E (lift_col j k)

/-! ## The column operations at an entry -/

theorem maxRow_at (L : FVec Ideal S3200x640 .f32) (j : Fin 640) :
    maxRow L (ix2 (0 : Fin 1) j) = colMax (fun k : Fin 3200 => L (ix2 k j)) := by
  unfold maxRow; rw [row_cast, max_col]

theorem sumRow_at (L : FVec Ideal S3200x640 .f32) (j : Fin 640) :
    sumRow L (ix2 (0 : Fin 1) j)
      = ∑ k : Fin 3200, Ideal.exp (L (ix2 k j) - colMax (fun k : Fin 3200 => L (ix2 k j))) := by
  unfold sumRow; rw [row_cast, sum_col]
  refine Finset.sum_congr rfl fun k _ => ?_
  show Ideal.exp (L (ix2 k j) - broadcastTo S3200x640 (maxRow L) Gen.broadcasts_S1x640_S3200x640 (ix2 k j)) = _
  rw [row_bcast, maxRow_at]

/-- A logarithm taken entry by entry, at an entry. -/
theorem log_at (S : FVec Ideal S1x640 .f32) (i : S1x640.Idx) : log S i = Ideal.log (S i) := rfl

/-- The column operations at `(t, j)`: the column log-softmax of column `j`. -/
theorem colTail_at (L : FVec Ideal S3200x640 .f32) (t : Fin 3200) (j : Fin 640) :
    colTail L (ix2 t j) = colLogSoftmax (fun k : Fin 3200 => L (ix2 k j)) t := by
  unfold colTail
  refine (subf_apply L _ (ix2 t j)).trans ?_
  rw [row_bcast]
  refine (congrArg (L (ix2 t j) - ·) (addf_apply (maxRow L) (log (sumRow L)) (ix2 (0 : Fin 1) j))).trans ?_
  rw [maxRow_at, log_at, sumRow_at]
  unfold colLogSoftmax
  rfl

/-! ## The logits at an entry -/

theorem lhs_axis0 (i : S3200x640.Idx) (q : dot_S3200x128_S640x128_S3200x640_1_1_0_0_n_n.contr.Idx) :
    (dot_S3200x128_S640x128_S3200x640_1_1_0_0_n_n.lhsIdx i q 0).val = (i 0).val := by
  unfold DotDims.lhsIdx
  rw [dif_neg (show ¬(0 : Fin S3200x128.rank) ∈ dot_S3200x128_S640x128_S3200x640_1_1_0_0_n_n.lhsBatch by decide), dif_pos (show (0 : Fin S3200x128.rank) ∈ dot_S3200x128_S640x128_S3200x640_1_1_0_0_n_n.lhsNonContracting by decide)]
  rfl
theorem lhs_axis1 (i : S3200x640.Idx) (q : dot_S3200x128_S640x128_S3200x640_1_1_0_0_n_n.contr.Idx) :
    (dot_S3200x128_S640x128_S3200x640_1_1_0_0_n_n.lhsIdx i q 1).val = (q ⟨0, by decide⟩).val :=
  dot_S3200x128_S640x128_S3200x640_1_1_0_0_n_n.lhsIdx_val_of_single rfl i q
theorem rhs_axis0 (i : S3200x640.Idx) (q : dot_S3200x128_S640x128_S3200x640_1_1_0_0_n_n.contr.Idx) :
    (dot_S3200x128_S640x128_S3200x640_1_1_0_0_n_n.rhsIdx i q 0).val = (i 1).val := by
  unfold DotDims.rhsIdx
  rw [dif_neg (show ¬(0 : Fin S640x128.rank) ∈ dot_S3200x128_S640x128_S3200x640_1_1_0_0_n_n.rhsBatch by decide), dif_pos (show (0 : Fin S640x128.rank) ∈ dot_S3200x128_S640x128_S3200x640_1_1_0_0_n_n.rhsNonContracting by decide)]
  rfl
theorem rhs_axis1 (i : S3200x640.Idx) (q : dot_S3200x128_S640x128_S3200x640_1_1_0_0_n_n.contr.Idx) :
    (dot_S3200x128_S640x128_S3200x640_1_1_0_0_n_n.rhsIdx i q 1).val = (q ⟨0, by decide⟩).val :=
  dot_S3200x128_S640x128_S3200x640_1_1_0_0_n_n.rhsIdx_val_of_single rfl i q

/-- The matrix product into a zero accumulator at `(t, j)`: the inner product of row `t` of the left operand with row `j`
    of the right one (both contract their second axis). -/
theorem product_at (a : FVec Ideal S3200x128 .bf16) (b : FVec Ideal S640x128 .bf16) (t : Fin 3200) (j : Fin 640) :
    matmul dot_S3200x128_S640x128_S3200x640_1_1_0_0_n_n none a b (constant S3200x640 .f32 0x00000000#32) (ix2 t j)
      = ∑ e : Fin 128, a (ix2 t e) * b (ix2 j e) := by
  simp only [matmul]
  rw [Ideal.matmul_constant_zero_apply, ← Equiv.sum_comp (ValueIdx.contrEquiv1 dot_S3200x128_S640x128_S3200x640_1_1_0_0_n_n 128 rfl rfl).symm]
  refine Finset.sum_congr rfl fun e _ => ?_
  have he := ValueIdx.contrEquiv1_symm_val dot_S3200x128_S640x128_S3200x640_1_1_0_0_n_n 128 rfl rfl e
  have el : dot_S3200x128_S640x128_S3200x640_1_1_0_0_n_n.lhsIdx (ix2 t j) ((ValueIdx.contrEquiv1 dot_S3200x128_S640x128_S3200x640_1_1_0_0_n_n 128 rfl rfl).symm e) = ix2 t e := funext fun c => Fin.ext (by
    match c with
    | ⟨0, _⟩ => exact lhs_axis0 _ _
    | ⟨1, _⟩ => exact (lhs_axis1 _ _).trans he)
  have er : dot_S3200x128_S640x128_S3200x640_1_1_0_0_n_n.rhsIdx (ix2 t j) ((ValueIdx.contrEquiv1 dot_S3200x128_S640x128_S3200x640_1_1_0_0_n_n 128 rfl rfl).symm e) = ix2 j e := funext fun c => Fin.ext (by
    match c with
    | ⟨0, _⟩ => exact rhs_axis0 _ _
    | ⟨1, _⟩ => exact (rhs_axis1 _ _).trans he)
  rw [el, er]

/-- The block of logits at `(t, j)`. -/
theorem blockL_at (x0 : FVec Ideal S3200x128 .bf16) (x1 : FVec Ideal S640x128 .bf16) (x2 : FVec Ideal S1x640 .f32) (t : Fin 3200) (j : Fin 640) :
    blockL x0 x1 x2 (ix2 t j) = blockLogit x0 x1 x2 t j := by
  unfold blockL blockLogit
  rw [shapeCast_self, shapeCast_self, shapeCast_self]
  show matmul dot_S3200x128_S640x128_S3200x640_1_1_0_0_n_n none x0 x1 (constant S3200x640 .f32 0x00000000#32) (ix2 t j)
    + broadcastTo S3200x640 x2 Gen.broadcasts_S1x640_S3200x640 (ix2 t j) = _
  rw [product_at, row_bcast]

/-! ## The stored value at an entry -/

/-- THE STORED VALUE AT `(t, j)`: the log-softmax, over the 3200 tokens, of column `j` of the block's logits. -/
theorem pay_at (x0 : Vec Ideal S3200x128 .bf16) (x1 : Vec Ideal S640x128 .bf16) (x2 : Vec Ideal S1x640 .f32) (t : Fin 3200) (j : Fin 640) :
    k0_pay1 (F := Ideal) x0 x1 x2 (ix2 t j) = colLogSoftmax (fun k : Fin 3200 => blockLogit x0 x1 x2 k j) t := by
  rw [pay_eq, colTail_at]
  exact congrArg (fun f => colLogSoftmax f t) (funext fun k => blockL_at x0 x1 x2 k j)

end Cert.KernelIdeal.Body

end
-- ==== Proof.KernelValue.lean ====
/-
  The kernel's whole result array.

  The region runs 50 grid points; point `t` reads the whole embeddings array, rows `640·t … 640·t + 639` of the projection
  matrix and the same 640 biases, and writes back columns `640·t … 640·t + 639` of the [3200, 32000] result, all 3200 rows.
  What it writes back at `(p, q)` of that block is the column log-softmax of column `q` of the block's logits, and the
  block's logits are the specification's logits of vocabulary entry `640·t + q`; so the block is the specification's
  result read through the block (`flushed_eq`). The 50 blocks tile the array — column `v` lies in block `v / 640` —, so the
  array after the run IS the specification's result (`final`), and the run can be re-posted with it (`run`).
-/
import proofs.«419909_j12833362280545_1_alg».proof.Proof.Gen.KernelIdeal.Value
import proofs.«419909_j12833362280545_1_alg».proof.Proof.KernelHost
import proofs.«419909_j12833362280545_1_alg».proof.Proof.KernelBody
import proofs.«419909_j12833362280545_1_alg».proof.Proof.Spec

set_option maxRecDepth 16384

noncomputable section

namespace Cert.KernelIdeal.WholeValue

open Cert.KernelIdeal Cert.KernelIdeal.Gen Cert.KernelIdeal.Value Cert.KernelIdeal.HostSide Cert.KernelIdeal.Body
open Idealize.ShloMosaic Idealize.ShloMosaic.TcCoe Idealize.SL.Sem Idealize.ShloMosaic.ValueIdx Cert.TokenLogSoftmax
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 50 points: the embeddings window stays at block (0, 0); the projection
    matrix's window is at row block `t`; the bias row's and the result's windows are at column block `t`. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val ∧ t.val < 50 :=
  (by decide +kernel : ∀ t : Fin grid0.N, _)

/-- The three input blocks at point `t`, at their literal types. -/
abbrev blk0 (c : Dev nD) (t : Fin cfg0.N) : Vec Ideal S3200x128 .bf16 := iblk m c 0 t
abbrev blk1 (c : Dev nD) (t : Fin cfg0.N) : Vec Ideal S640x128 .bf16 := iblk m c 1 t
abbrev blk2 (c : Dev nD) (t : Fin cfg0.N) : Vec Ideal S1x640 .f32 := iblk m c 2 t

/-- The embeddings block at any point is the whole embeddings array. -/
theorem blk0_at (c : Dev nD) (t : Fin cfg0.N) (k : Fin 3200) (e : Fin 128) :
    blk0 m c t (ix2 k e) = (V m c main_v6 : S3200x128.Idx → EReal) (ix2 k e) := by
  obtain ⟨e00, e01, -⟩ := idx_facts t
  show (V m c main_v6 : S3200x128.Idx → EReal) (((cfg0.win 0).blk t).view.emb (ix2 k e)) = _
  refine congrArg _ (funext fun a => Fin.ext ?_)
  match a with
  | ⟨0, _⟩ => show win0_0.index t (0 : Fin 2) * 3200 + 1 * k.val = k.val; omega
  | ⟨1, _⟩ => show win0_0.index t (1 : Fin 2) * 128 + 1 * e.val = e.val; omega

/-- The projection block at point `t` holds rows `640·t + q` of the projection matrix. -/
theorem blk1_at (c : Dev nD) (t : Fin cfg0.N) (q : Fin 640) (e : Fin 128) (v : Fin 32000) (hv : v.val = t.val * 640 + q.val) :
    blk1 m c t (ix2 q e) = (V m c main_v7 : S32000x128.Idx → EReal) (ix2 v e) := by
  obtain ⟨-, -, e10, e11, -⟩ := idx_facts t
  show (V m c main_v7 : S32000x128.Idx → EReal) (((cfg0.win 1).blk t).view.emb (ix2 q e)) = _
  refine congrArg _ (funext fun a => Fin.ext ?_)
  match a with
  | ⟨0, _⟩ => show win0_1.index t (0 : Fin 2) * 640 + 1 * q.val = v.val; omega
  | ⟨1, _⟩ => show win0_1.index t (1 : Fin 2) * 128 + 1 * e.val = e.val; omega

/-- The bias block at point `t` holds biases `640·t + q`. -/
theorem blk2_at (c : Dev nD) (t : Fin cfg0.N) (q : Fin 640) (v : Fin 32000) (hv : v.val = t.val * 640 + q.val) :
    blk2 m c t (ix2 (0 : Fin 1) q) = (V m c main_v8 : S1x32000.Idx → EReal) (ix2 (0 : Fin 1) v) := by
  obtain ⟨-, -, -, -, e20, e21, -⟩ := idx_facts t
  show (V m c main_v8 : S1x32000.Idx → EReal) (((cfg0.win 2).blk t).view.emb (ix2 (0 : Fin 1) q)) = _
  refine congrArg _ (funext fun a => Fin.ext ?_)
  match a with
  | ⟨0, _⟩ => show win0_2.index t (0 : Fin 2) * 1 + 1 * 0 = 0; omega
  | ⟨1, _⟩ => show win0_2.index t (1 : Fin 2) * 640 + 1 * q.val = v.val; omega

/-- The block's logits are the specification's logits of the block's vocabulary entries. -/
theorem blockLogit_eq (c : Dev nD) (hx : TokensInRange (argX m c)) (t : Fin cfg0.N) (q : Fin 640) (v : Fin 32000)
    (hv : v.val = t.val * 640 + q.val) (k : Fin 3200) :
    blockLogit (blk0 m c t) (blk1 m c t) (blk2 m c t) k q
      = logit (argX m c) (argWA m c) (argBA m c) (argWB m c) (argBB m c) k v := by
  unfold blockLogit logit
  rw [blk2_at m c t q v hv, bb_at]
  refine congrArg (· + _) (Finset.sum_congr rfl fun e _ => ?_)
  rw [blk0_at, embed_at m c hx, blk1_at m c t q e v hv, wb_at]

/-- WHAT POINT `t` WRITES BACK is block `t` of the specification's result. -/
theorem flushed_eq (c : Dev nD) (hx : TokensInRange (argX m c)) (t : Fin cfg0.N) :
    (dats m 0 c).flushed 3 t = ((cfg0.win 3).blk t).view.read (Elt Ideal)
      (result (argX m c) (argWA m c) (argBA m c) (argWB m c) (argBB m c)) := by
  rw [Value.flushed3]
  unfold out0_3
  rw [View.canon_unit_zero hz]
  simp only [View.ld_unit_zero (S := S3200x128) hz, View.ld_unit_zero (S := S640x128) hz, View.ld_unit_zero (S := S1x640) hz]
  obtain ⟨-, -, -, -, -, -, e30, e31, ht⟩ := idx_facts t
  funext y
  obtain ⟨p, q, rfl⟩ : ∃ (p : Fin 3200) (q : Fin 640), y = ix2 p q := ⟨y 0, y 1, eq_ix2 y⟩
  have hq : q.val < 640 := q.isLt
  have hemb : ((cfg0.win 3).blk t).view.emb (ix2 p q) = ix2 p (⟨t.val * 640 + q.val, by omega⟩ : Fin 32000) := by
    funext a; apply Fin.ext
    match a with
    | ⟨0, _⟩ => show win0_3.index t (0 : Fin 2) * 3200 + 1 * p.val = p.val; omega
    | ⟨1, _⟩ => show win0_3.index t (1 : Fin 2) * 640 + 1 * q.val = t.val * 640 + q.val; omega
  show k0_pay1 (F := Ideal) (blk0 m c t) (blk1 m c t) (blk2 m c t) (ix2 p q)
    = result (argX m c) (argWA m c) (argBA m c) (argWB m c) (argBB m c) (((cfg0.win 3).blk t).view.emb (ix2 p q))
  rw [hemb, result_apply]
  refine (pay_at (blk0 m c t) (blk1 m c t) (blk2 m c t) p q).trans ?_
  exact congrArg (fun f => colLogSoftmax f p) (funext fun k => blockLogit_eq m c hx t q _ rfl k)

/-- An index of the array is in point `t`'s block iff each coordinate is in the block's range on its axis. -/
theorem mem_blk (t : Fin cfg0.N) (i : S3200x32000.Idx) :
    i ∈ ((cfg0.win 3).blk t).view.set ↔ ∀ a : Fin 2, win0_3.index t a * S3200x640.size a ≤ (i a).val ∧ (i a).val < win0_3.index t a * S3200x640.size a + S3200x640.size a := by
  show i ∈ ((View.whole main_v9).slice (win0_3.rect t)).set ↔ _
  rw [View.set_slice_whole, Rect.mem_set_unit]
  exact Iff.rfl

/-- Every block index `0 … 49` along the columns is some point's. -/
theorem idx_onto : ∀ q1 : Fin 50, ∃ t : Fin cfg0.N, win0_3.index t = ![0, q1.val] :=
  (by decide +kernel : ∀ q1 : Fin 50, ∃ t : Fin grid0.N, win0_3.index t = ![0, q1.val])

/-- The 50 blocks cover the array: column `v` is in block `v / 640`. -/
theorem cover (i : S3200x32000.Idx) : ∃ t : Fin cfg0.N, (cfg0.win 3).flush t = true ∧ i ∈ ((cfg0.win 3).blk t).view.set := by
  have hi0 : (i 0).val < 3200 := (i 0).isLt
  have hi1 : (i 1).val < 32000 := (i 1).isLt
  obtain ⟨t, ht⟩ := idx_onto ⟨(i 1).val / 640, by omega⟩
  have q0 : win0_3.index t (0 : Fin 2) = 0 := congrFun ht 0
  have q1 : win0_3.index t (1 : Fin 2) = (i 1).val / 640 := congrFun ht 1
  refine ⟨t, flush0_3 t, ?_⟩
  rw [mem_blk]
  intro a
  match a with
  | ⟨0, _⟩ => show win0_3.index t (0 : Fin 2) * 3200 ≤ (i 0).val ∧ (i 0).val < win0_3.index t (0 : Fin 2) * 3200 + 3200; omega
  | ⟨1, _⟩ => show win0_3.index t (1 : Fin 2) * 640 ≤ (i 1).val ∧ (i 1).val < win0_3.index t (1 : Fin 2) * 640 + 640; omega

/-- THE ARRAY after the run is the specification's result of the argument arrays. -/
theorem final (c : Dev nD) (hx : TokensInRange (argX m c)) :
    (dats m 0 c).arrAt 3 cfg0.N = result (argX m c) (argWA m c) (argBA m c) (argWB m c) (argBB m c) :=
  (dats m 0 c).arrAt_eq_of_cover 3 _ (fun t _ => flushed_eq m c hx t) cover

/-- The kernel's run re-posted: the result array at the specification's result, the arguments unchanged. -/
theorem run (hx : ∀ c : Dev nD, TokensInRange (argX m c)) :
    θ_run defs (onTc (τ := τ) (main (F := Ideal))) ⟨m, fun _ => 0, ρ⟩ fun r => ∀ c : Dev nD,
      r.2.mem ((c : Thread nD τ).loc main_v9) = result (argX m c) (argWA m c) (argBA m c) (argWB m c) (argBB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hx c)), (h c).2⟩) (Value.run_blocks m ρ)

end Cert.KernelIdeal.WholeValue

end
-- ==== Proof.RefValue.lean ====
/-
  The reference's result, read at an entry, is the specification's.

  Entry (t, v) of the last stage is read back through the stages. The start word of row t is the wrapped token word;
  the gather reads row (that word, signed and clamped into [0, 31999]) and column k of the transposed W_A, which is
  W_A at (k, column t); adding b_A and contracting with the transposed W_B gives the logit L t v. The max-reduce over
  the row axis is the fold of the maximum, from −∞, over the 3200 entries of column v; the sum-reduce is zero plus the
  sum of the shifted exponentials of the column. What is left is the two-step arrangement
  (L t v − max ⊥ M) − log (0 + ∑ₖ exp (L k v − max ⊥ M)), which on a column of reals is the specification's.
-/
import proofs.«419909_j12833362280545_1_alg».proof.Proof.RefReadPatched
import proofs.«419909_j12833362280545_1_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.TcCoe
open Idealize.ShloMosaic.ValueIdx Cert.TokenLogSoftmax

/-- The start word of row t: the token word of t, wrapped. -/
private theorem v7_read (x0 : Tokens) (t : Fin 3200) :
    val_main_v7 (F := Ideal) x0 (ix2 t (0 : Fin 1)) = wrapWord (tokenWord x0 t) := by
  rw [val_main_v7_apply, val_main_v6_apply, val_main_v3_apply, val_main_v5_apply, val_main_v0_apply,
    val_main_v2_apply, val_main_v4_apply, val_main_c_apply, val_main_c_0_apply]
  have e : idx_main_v0 (idx_main_v7 (ix2 t (0 : Fin 1))) = ix2 (⟨t.val / 50, by omega⟩ : Fin 64) (⟨t.val % 50, by omega⟩ : Fin 50) := by
    funext a
    match a with
    | ⟨0, _⟩ => rfl
    | ⟨1, _⟩ => rfl
  rw [e]
  rfl

private abbrev gd := gather_S32000x128_S3200x1_S3200x128_1_0_n_n_0_1_1128

/-- The gather's operand row at result entry (t, k): the start word of row t, read signed and clamped. -/
private theorem gather_row (y : IVec S3200x1 32) (t : Fin 3200) (k : Fin 128) :
    (gd.operandIdx (ix2 t k) y (0 : Fin 2)).val = min (y (ix2 t (0 : Fin 1))).toInt.toNat 31999 := by
  show gd.start (ix2 t k) y (0 : Fin 2) + gd.batchCoord (ix2 t k) (0 : Fin 2) + gd.offCoord (ix2 t k) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gd.startIndexMap from List.mem_singleton.mpr rfl)]
  have hsi : gd.siIdx (ix2 t k) ⟨List.idxOf (0 : Fin 2) gd.startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi]
  rfl

/-- The gather's operand column at result entry (t, k): k. -/
private theorem gather_col (y : IVec S3200x1 32) (t : Fin 3200) (k : Fin 128) :
    (gd.operandIdx (ix2 t k) y (1 : Fin 2)).val = k.val := by
  show gd.start (ix2 t k) y (1 : Fin 2) + gd.batchCoord (ix2 t k) (1 : Fin 2) + gd.offCoord (ix2 t k) (1 : Fin 2) = _
  rw [GatherDims.batchCoord_eq_zero _ _ _ List.not_mem_nil]
  unfold GatherDims.start
  rw [dif_neg (show ¬ (1 : Fin 2) ∈ gd.startIndexMap by decide)]
  simp only [Nat.zero_add, Nat.add_zero]
  rfl

/-- The gather read at (t, k): column (clamped wrapped word of token t) of W_A, row k. -/
private theorem v8_read (x0 : Tokens) (x1 : ArrWA) (t : Fin 3200) (k : Fin 128) :
    val_main_v8 (F := Ideal) x0 x1 (ix2 t k) = x1 (ix2 k (column x0 t)) := by
  unfold val_main_v8
  have hy := v7_read x0 t
  generalize val_main_v7 (F := Ideal) x0 = y at hy
  unfold Host.gather
  rw [val_main_v1_apply]
  congr 1
  funext a
  refine Fin.ext ?_
  match a with
  | ⟨0, _⟩ => exact gather_col y t k
  | ⟨1, _⟩ =>
    refine (gather_row y t k).trans ?_
    rw [hy]
    rfl

/-- Entry (t, v) of the logits stage is the specification's logit. -/
private theorem v16_read (x0 : Tokens) (x1 : ArrWA) (x2 : ArrBA) (x3 : ArrWB) (x4 : ArrBB) (t : Fin 3200) (v : Fin 32000) :
    val_main_v16 (F := Ideal) x0 x1 x2 x3 x4 (ix2 t v) = logit x0 x1 x2 x3 x4 t v := by
  rw [val_main_v16_apply, val_main_v13_apply, val_main_v15_apply, val_main_v14_apply]
  unfold logit embed
  show (_ : EReal) + _ = _
  congr 1
  · refine Finset.sum_congr rfl fun k _ => ?_
    have el : lidx_main_v13 (ix2 t v) k = ix2 t k := by
      funext a
      match a with
      | ⟨0, _⟩ => rfl
      | ⟨1, _⟩ => rfl
    have er : ridx_main_v13 (ix2 t v) k = ix2 k v := by
      funext a
      match a with
      | ⟨0, _⟩ => rfl
      | ⟨1, _⟩ => rfl
    rw [el, er, val_main_v11_apply, val_main_v12_apply, v8_read, val_main_v10_apply, val_main_v9_apply]
    have e3 : idx_main_v12 (ix2 k v) = ix2 v k := by
      funext a
      match a with
      | ⟨0, _⟩ => rfl
      | ⟨1, _⟩ => rfl
    have e2 : idx_main_v9 (idx_main_v10 (ix2 t k)) = ix1 k := by
      funext a
      match a with
      | ⟨0, _⟩ => rfl
    rw [e3, e2]
    rfl
  · have e4 : idx_main_v14 (idx_main_v15 (ix2 t v)) = ix1 v := by
      funext a
      match a with
      | ⟨0, _⟩ => rfl
    rw [e4]

private theorem reduces_d0 : S3200x32000.Reduces [0] S32000 := by decide

/-- A max-reduce over the row axis, at column v: the fold of the maximum over the 3200 rows. -/
private theorem reduce_max_fold (L : S3200x32000.Idx → Ideal .f32) (v : Fin 32000) :
    Host.reduce (FloatOps.maximumf (F := Ideal) (φ := .f32)) L (val_main_call0_cst (F := Ideal)) reducesTo_S3200x32000_S32000_d0 h_S_ (ix1 v)
      = (Finset.univ : Finset (Fin 3200)).fold (FloatOps.maximumf (F := Ideal) (φ := .f32))
          (val_main_call0_cst (F := Ideal) (Shape.Idx.first h_S_)) (L ∘ reduces_d0.lift (ix1 v)) :=
  Host.reduce_eq_fold_single (α := Ideal .f32) (s := S3200x32000) (t := S32000) (u := S_) (a := 0)
    (FloatOps.maximumf (F := Ideal) (φ := .f32)) L (val_main_call0_cst (F := Ideal))
    reducesTo_S3200x32000_S32000_d0 reduces_d0 h_S_ (ix1 v)

/-- Row k of column v, as the reduction lists it. -/
private theorem lift_d0 (v : Fin 32000) (k : Fin 3200) : reduces_d0.lift (ix1 v) k = ix2 k v := by
  funext c
  refine Fin.ext ?_
  match c with
  | ⟨0, _⟩ => rfl
  | ⟨1, _⟩ => rfl

/-- The word 0xFF800000 is −∞. -/
private theorem neg_inf_bits : Ideal.ofBits .f32 0xFF800000#32 = (⊥ : EReal) := by
  simp [Ideal.ofBits, Ideal.ieee]

/-- The max-reduce read at column v: the maximum, from −∞, of the column of logits. -/
private theorem max_read (x0 : Tokens) (x1 : ArrWA) (x2 : ArrBA) (x3 : ArrWB) (x4 : ArrBB) (v : Fin 32000) :
    val_main_call0_v0 (F := Ideal) x0 x1 x2 x3 x4 (ix1 v) = colMax (fun k : Fin 3200 => logit x0 x1 x2 x3 x4 k v) := by
  unfold val_main_call0_v0
  have hcol : ∀ k : Fin 3200, val_main_v16 (F := Ideal) x0 x1 x2 x3 x4 (ix2 k v) = logit x0 x1 x2 x3 x4 k v :=
    fun k => v16_read x0 x1 x2 x3 x4 k v
  generalize val_main_v16 (F := Ideal) x0 x1 x2 x3 x4 = L at hcol
  refine (reduce_max_fold L v).trans ?_
  have hinit : val_main_call0_cst (F := Ideal) (Shape.Idx.first h_S_) = (⊥ : EReal) := by
    rw [val_main_call0_cst_apply]
    exact neg_inf_bits
  have hf : (L ∘ reduces_d0.lift (ix1 v)) = fun k : Fin 3200 => logit x0 x1 x2 x3 x4 k v :=
    funext fun k : Fin 3200 => (congrArg L (lift_d0 v k)).trans (hcol k)
  rw [hinit, hf]
  rfl

/-- The column maximum taken once more against −∞, broadcast to entry (t, v). -/
private theorem v4_read (x0 : Tokens) (x1 : ArrWA) (x2 : ArrBA) (x3 : ArrWB) (x4 : ArrBB) (t : Fin 3200) (v : Fin 32000) :
    val_main_call0_v4 (F := Ideal) x0 x1 x2 x3 x4 (ix2 t v)
      = max ⊥ (colMax (fun k : Fin 3200 => logit x0 x1 x2 x3 x4 k v)) := by
  rw [val_main_call0_v4_apply, val_main_call0_v3_apply, val_main_call0_v2_apply, val_main_call0_v1_apply,
    val_main_call0_cst_0_apply]
  have e : idx_main_call0_v3 (idx_main_call0_v4 (ix2 t v)) = ix1 v := by
    funext a
    match a with
    | ⟨0, _⟩ => rfl
  rw [e, max_read]
  show max (Ideal.ofBits .f32 0xFF800000#32) _ = _
  rw [neg_inf_bits]

/-- The shifted logit at entry (t, v). -/
private theorem v5_read (x0 : Tokens) (x1 : ArrWA) (x2 : ArrBA) (x3 : ArrWB) (x4 : ArrBB) (t : Fin 3200) (v : Fin 32000) :
    val_main_call0_v5 (F := Ideal) x0 x1 x2 x3 x4 (ix2 t v)
      = logit x0 x1 x2 x3 x4 t v - max ⊥ (colMax (fun k : Fin 3200 => logit x0 x1 x2 x3 x4 k v)) := by
  rw [val_main_call0_v5_apply, v16_read, v4_read]
  rfl

/-- The sum-reduce read at column v: zero plus the sum of the shifted exponentials of the column. -/
private theorem sum_read (x0 : Tokens) (x1 : ArrWA) (x2 : ArrBA) (x3 : ArrWB) (x4 : ArrBB) (v : Fin 32000) :
    val_main_call0_v7 (F := Ideal) x0 x1 x2 x3 x4 (ix1 v)
      = 0 + ∑ k : Fin 3200, Ideal.exp (logit x0 x1 x2 x3 x4 k v
          - max ⊥ (colMax (fun k : Fin 3200 => logit x0 x1 x2 x3 x4 k v))) := by
  rw [val_main_call0_v7_apply, val_main_call0_cst_1_apply]
  show Ideal.ofBits .f32 0x00000000#32 + _ = _
  rw [Ideal.ofBits_zero_f32]
  congr 1
  refine Finset.sum_congr rfl fun k _ => ?_
  have e : idx_main_call0_v7 (ix1 v) k = ix2 k v := by
    funext a
    match a with
    | ⟨0, _⟩ => rfl
    | ⟨1, _⟩ => rfl
  rw [e, val_main_call0_v6_apply, v5_read]
  rfl

/-- The logarithm of the column's sum, broadcast to entry (t, v). -/
private theorem v10_read (x0 : Tokens) (x1 : ArrWA) (x2 : ArrBA) (x3 : ArrWB) (x4 : ArrBB) (t : Fin 3200) (v : Fin 32000) :
    val_main_call0_v10 (F := Ideal) x0 x1 x2 x3 x4 (ix2 t v)
      = Ideal.log (0 + ∑ k : Fin 3200, Ideal.exp (logit x0 x1 x2 x3 x4 k v
          - max ⊥ (colMax (fun k : Fin 3200 => logit x0 x1 x2 x3 x4 k v)))) := by
  rw [val_main_call0_v10_apply, val_main_call0_v9_apply, val_main_call0_v8_apply]
  have e : idx_main_call0_v8 (idx_main_call0_v10 (ix2 t v)) = ix1 v := by
    funext a
    match a with
    | ⟨0, _⟩ => rfl
  rw [e, sum_read]
  rfl

/-- The reference's last stage, as a function of its five arguments, is the specification's result when the four float
    arrays hold real numbers (the two arrangements of the column log-softmax agree on columns of reals). -/
theorem result_eq (x0 : Tokens) (x1 : ArrWA) (x2 : ArrBA) (x3 : ArrWB) (x4 : ArrBB)
    (h1 : AllReal x1) (h2 : AllReal x2) (h3 : AllReal x3) (h4 : AllReal x4) :
    val_main_v17 (F := Ideal) x0 x1 x2 x3 x4 = result x0 x1 x2 x3 x4 := by
  funext i
  obtain ⟨t, v, rfl⟩ : ∃ (t : Fin 3200) (v : Fin 32000), i = ix2 t v := ⟨i 0, i 1, eq_ix2 i⟩
  rw [result_apply, val_main_v17_apply, v5_read, v10_read]
  exact column_law (by decide) (fun k : Fin 3200 => logit x0 x1 x2 x3 x4 k v)
    (fun k => logit_real h1 h2 h3 h4 k v) t

end Cert.ReferenceIdeal.RefValue

end
-- ==== Proof.lean ====
/-
  The certificate of the token-embedding, projection and column log-softmax kernel against its jnp reference.

  Both programs take 3200 token words `x`, select for each a column of `W_A` (a negative word wrapped once, then
  clamped), add `b_A`, multiply by `W_Bᵀ`, add `b_B`, and take the log-softmax of every column of the [3200, 32000] logits
  over the 3200 tokens. The kernel computes a column's result in one step, `L − (M + log S)`, 640 columns per grid
  point; the reference in two, `(L − M) − log S`. On the extended reals the two agree where `M` and `log S` are real
  numbers, which the precondition's finiteness of the four float arrays gives (Spec.lean, `column_law`).

  The precondition also says every token word lies in `[−32000, 32000)`: the kernel's take fills an out-of-range
  position with a not-a-number pattern where the reference's indexing clamps, so outside that range the two programs
  differ and the reference indexes out of range; inside it the fill is never selected (KernelHost.lean).

  The pieces: PreDecode.lean reads the precondition entry by entry; KernelHost.lean, KernelBody.lean and
  KernelValue.lean give the kernel's result array as the specification's `result`; RefValue.lean gives the reference's.
  The three frames are the generated ones (the reference's is its run with the result dropped); `preserves` has no
  entry to state.
-/
import proofs.«419909_j12833362280545_1_alg».proof.Defs
import proofs.«419909_j12833362280545_1_alg».proof.Proof.Gen.Kernel
import proofs.«419909_j12833362280545_1_alg».proof.Proof.Gen.Kernel.Skeleton
import proofs.«419909_j12833362280545_1_alg».proof.Proof.Gen.Kernel.Launch
import proofs.«419909_j12833362280545_1_alg».proof.Proof.Gen.Kernel.Points
import proofs.«419909_j12833362280545_1_alg».proof.Proof.Gen.Kernel.Frame
import proofs.«419909_j12833362280545_1_alg».proof.Proof.Gen.KernelIdeal
import proofs.«419909_j12833362280545_1_alg».proof.Proof.Gen.KernelIdeal.Skeleton
import proofs.«419909_j12833362280545_1_alg».proof.Proof.Gen.KernelIdeal.Launch
import proofs.«419909_j12833362280545_1_alg».proof.Proof.Gen.KernelIdeal.Points
import proofs.«419909_j12833362280545_1_alg».proof.Proof.Gen.KernelIdeal.Frame
import proofs.«419909_j12833362280545_1_alg».proof.Proof.Gen.ReferenceIdeal
import proofs.«419909_j12833362280545_1_alg».proof.Proof.Gen.Pre_finite_inputs
import proofs.«419909_j12833362280545_1_alg».proof.Proof.Gen.KernelIdeal.Value
import proofs.«419909_j12833362280545_1_alg».proof.Proof.RefRunPatched
import proofs.«419909_j12833362280545_1_alg».proof.Proof.RefReadPatched
import proofs.«419909_j12833362280545_1_alg».proof.Proof.PreDecode
import proofs.«419909_j12833362280545_1_alg».proof.Proof.KernelValue
import proofs.«419909_j12833362280545_1_alg».proof.Proof.RefValue
import Idealize.ShloMosaic.Adequacy
import Idealize.ShloMosaic.Init

noncomputable section

namespace Cert.Proof

open Idealize.ShloMosaic Idealize.ShloMosaic.TcCoe Idealize.SL.Sem Cert.TokenLogSoftmax

theorem frame_k : Cert.frame_Kernel := fun m ρ _ => Cert.Kernel.Gen.frame m ρ

theorem frame_ki : Cert.frame_KernelIdeal := fun m ρ _ => Cert.KernelIdeal.Gen.frame m ρ

/-- The reference's frame: its run, with what it computes dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing in this kernel. -/
theorem preserves : Cert.preserves_Kernel_KernelIdeal := trivial

/-- Both programs end with the specification's `result` of the (shared) arguments: the kernel's array by its blocks, the
    reference's by its stages and the law between the two arrangements of a column's log-softmax. -/
theorem algebraic : Cert.algebraic_KernelIdeal_ReferenceIdeal := by
  intro m ρ m' ρ' hpre hagree
  have hdec := fun c => Cert.Pre_finite_inputs.Decode.of_pre _ _ _ _ _ (hpre c)
  refine ⟨fun c => result (Cert.KernelIdeal.HostSide.argX m c) (Cert.KernelIdeal.HostSide.argWA m c)
      (Cert.KernelIdeal.HostSide.argBA m c) (Cert.KernelIdeal.HostSide.argWB m c) (Cert.KernelIdeal.HostSide.argBB m c),
    Cert.KernelIdeal.WholeValue.run m ρ (fun c => (hdec c).2.2.2.2), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v17_eq, (hagree c).1, (hagree c).2.1, (hagree c).2.2.1, (hagree c).2.2.2.1, (hagree c).2.2.2.2]
  exact Cert.ReferenceIdeal.RefValue.result_eq _ _ _ _ _ (hdec c).1 (hdec c).2.1 (hdec c).2.2.1 (hdec c).2.2.2.1

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
